-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x32 : Shape := ⟨2, ![1000000, 32]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S2x1000000 : S_.BroadcastsInDim S2x1000000 (![] : Fin 0 → Fin S2x1000000.rank)
  reducesTo_S2x1000000_S_d0_1 : S2x1000000.ReducesTo [0, 1] S_

variable [Facts]

def fn_part3 {F : FTy → Type} [FloatOps F] (main_arg1 : IVec S2x1000000 32) (main_v48 : IVec S_ 1) (main_v50 : IVec S2x1000000 1) : IVec S_ 1 :=
  let main_c_19 : IVec S_ 32 := constantI S_ 32 100000#32
  let main_v51 : IVec S2x1000000 32 := broadcastInDim S2x1000000 ![] bcast_S_S2x1000000 main_c_19
  let main_v52 : IVec S2x1000000 1 := cmpi .slt main_arg1 main_v51
  let main_v53 : IVec S2x1000000 1 := andi main_v50 main_v52
  let main_c_20 : IVec S_ 1 := constantI S_ 1 1#1
  let main_v54 : IVec S_ 1 := (fun x v => Host.reduce IntOp.andi x v reducesTo_S2x1000000_S_d0_1 h_S_) main_v53 main_c_20
  let main_v55 : IVec S_ 1 := andi main_v48 main_v54
  main_v55

def fn_part2 {F : FTy → Type} [FloatOps F] (main_arg1 : IVec S2x1000000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 4294867296#32
  let main_v49 : IVec S2x1000000 32 := broadcastInDim S2x1000000 ![] bcast_S_S2x1000000 main_c_18
  let main_v50 : IVec S2x1000000 1 := cmpi .sge main_arg1 main_v49
  fn_part3 (F := F) main_arg1 main_v48 main_v50

def fn_part1 {F : FTy → Type} [FloatOps F] (main_arg1 : IVec S2x1000000 32) (main_arg5 : FVec F S128x64 .f32) (main_arg6 : FVec F S64 .f32) (main_arg7 : FVec F S32x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x1000000 32) (main_arg2 : FVec F S1000000x32 .f32) (main_arg3 : FVec F S128x64 .f32) (main_arg4 : FVec F S64 .f32) (main_arg5 : FVec F S128x64 .f32) (main_arg6 : FVec F S64 .f32) (main_arg7 : FVec F S32x64 .f32) (main_arg8 : FVec F S64 .f32) (main_arg9 : FVec F S64x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x32 .f32 := Host.absf main_arg2
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x1000000 : Shape := ⟨2, ![2, 1000000]⟩
abbrev S1000000x32 : Shape := ⟨2, ![1000000, 32]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S1x64 : Shape := ⟨2, ![1, 64]⟩
abbrev S1000000x64 : Shape := ⟨2, ![1000000, 64]⟩
abbrev S4000x128 : Shape := ⟨2, ![4000, 128]⟩
abbrev S4000x32 : Shape := ⟨2, ![4000, 32]⟩
abbrev S4000x64 : Shape := ⟨2, ![4000, 64]⟩

abbrev nBuf : Space → Nat
  | .hbm => 66
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S32x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1, .i32⟩
  | .hbm, ⟨24, _⟩ => ⟨S_, .i32⟩
  | .hbm, ⟨25, _⟩ => ⟨S1000000x1, .i32⟩
  | .hbm, ⟨26, _⟩ => ⟨S1000000x1, .i1⟩
  | .hbm, ⟨27, _⟩ => ⟨S1x1, .i32⟩
  | .hbm, ⟨28, _⟩ => ⟨S1000000x1, .i32⟩
  | .hbm, ⟨29, _⟩ => ⟨S1000000x1, .i1⟩
  | .hbm, ⟨30, _⟩ => ⟨S1000000x1, .i1⟩
  | .hbm, ⟨31, _⟩ => ⟨S_, .i1⟩
  | .hbm, ⟨32, _⟩ => ⟨S1000000, .i1⟩
  | .hbm, ⟨33, _⟩ => ⟨S1000000x128, .f32⟩
  | .hbm, ⟨34, _⟩ => ⟨S1000000x128, .i1⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1, .i32⟩
  | .hbm, ⟨47, _⟩ => ⟨S_, .i32⟩
  | .hbm, ⟨48, _⟩ => ⟨S1000000x1, .i32⟩
  | .hbm, ⟨49, _⟩ => ⟨S1000000x1, .i1⟩
  | .hbm, ⟨50, _⟩ => ⟨S1x1, .i32⟩
  | .hbm, ⟨51, _⟩ => ⟨S1000000x1, .i32⟩
  | .hbm, ⟨52, _⟩ => ⟨S1000000x1, .i1⟩
  | .hbm, ⟨53, _⟩ => ⟨S1000000x1, .i1⟩
  | .hbm, ⟨54, _⟩ => ⟨S_, .i1⟩
  | .hbm, ⟨55, _⟩ => ⟨S1000000, .i1⟩
  | .hbm, ⟨56, _⟩ => ⟨S1000000x128, .f32⟩
  | .hbm, ⟨57, _⟩ => ⟨S1000000x128, .i1⟩
  | .hbm, ⟨58, _⟩ => ⟨S_, .f32⟩
  | .hbm, ⟨59, _⟩ => ⟨S1000000x128, .f32⟩
  | .hbm, ⟨60, _⟩ => ⟨S1000000x128, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1000000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S1x64, .f32⟩
  | .local _ .vmem, ⟨10, _⟩ => ⟨S32x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S128x64_S128x64_0_0 : ∀ a, (![0, 0] : Fin 2 → Nat) a + S128x64.size a ≤ S128x64.size a
  h_S128x64 : 0 < S128x64.numel
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x128_S1000000x1_S1000000x128_1_0_n_n_0_1_1128_wf : GatherDims.WF S100000x128 S1000000x1 S1000000x128 [1] [0] [] [0] [] 1 ![1, 128]
  dot_S4000x128_S128x64_S4000x64_1_0_0_1_n_n_wf : DotDims.WF S4000x128 S128x64 S4000x64 [1] [0] [0] [1] [] []
  dot_S4000x32_S32x64_S4000x64_1_0_0_1_n_n_wf : DotDims.WF S4000x32 S32x64 S4000x64 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1000000x32.size a
  hwx0_2 : ∀ i : grid0.Coords, EltTy.bits .f32 = 32 ∨ (Rect.block (s := S1000000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S1000000x64.size a
  hwx0_11 : ∀ i : grid0.Coords, EltTy.bits .f32 = 32 ∨ (Rect.block (s := S1000000x64) S4000x64.size (cc0_transform_11 i) (hinb0_11 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x32 : Shape := ⟨2, ![1000000, 32]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x64 : Shape := ⟨2, ![1000000, 64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S32x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S1x1000000, .i32⟩
  | .hbm, ⟨23, _⟩ => ⟨S1000000, .i32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S1000000x64, .f32⟩
  | .hbm, ⟨34, _⟩ => ⟨S1x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S1x64, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1x64, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call3_cst : Ref sig .tc := ⟨.hbm, 56, rfl⟩
abbrev main_call3_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call4_cst : Ref sig .tc := ⟨.hbm, 63, rfl⟩
abbrev main_call4_v0 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  gather_S100000x128_S1000000x1_S1000000x128_1_0_n_n_0_1_1128_wf : GatherDims.WF S100000x128 S1000000x1 S1000000x128 [1] [0] [] [0] [] 1 ![1, 128]
  dot_S1000000x128_S128x64_S1000000x64_1_0_0_1_n_n_wf : DotDims.WF S1000000x128 S128x64 S1000000x64 [1] [0] [0] [1] [] []
  dot_S1000000x32_S32x64_S1000000x64_1_0_0_1_n_n_wf : DotDims.WF S1000000x32 S32x64 S1000000x64 [1] [0] [0] [1] [] []
  dot_S1000000x64_S64x64_S1000000x64_1_0_0_1_n_n_wf : DotDims.WF S1000000x64 S64x64 S1000000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.EdgeMlp.lean ====
/-
  The edge network as ONE function of its arrays, index by index, over the extended reals.

  For an edge `e` and an output channel `n`:
    hidden X W b e k = max ((∑ d, X[e, d] · W[d, k]) + b[k]) 0          (a linear layer followed by a rectifier)
    out[e, n]        = max ((∑ k, max ((hidden XI Wi bi e k + hidden XJ Wj bj e k) + hidden EA We be e k) 0 · Wo[k, n]) + bo[n]) 0
  where `XI` and `XJ` are the node features gathered at the edge's two end points and `EA` the edge's own features.
  Sums are over a `Fin`-indexed axis, additions are kept in the order both programs make them, and the zero is the
  f32 pattern of `0.0` read as an extended real (never evaluated: the same word stands on both sides).
-/
import Idealize.ShloMosaic.Lib.ValueIdx
import Idealize.ShloMosaic.PureOps.Ideal.Laws

noncomputable section

namespace Cert.EdgeMlp

open Idealize.ShloMosaic Idealize.ShloMosaic.ValueIdx

/-- The f32 word of `0.0` as an extended real. -/
abbrev zero : EReal := Ideal.ofBits .f32 0x00000000#32

/-- One linear layer and its rectifier at edge `e`, channel `k`: `max (X[e, :] · W[:, k] + b[k]) 0`. -/
def hidden {D : Nat} (X : (⟨2, ![1000000, D]⟩ : Shape).Idx → EReal) (W : (⟨2, ![D, 64]⟩ : Shape).Idx → EReal)
    (b : (⟨1, ![64]⟩ : Shape).Idx → EReal) (e : Fin 1000000) (k : Fin 64) : EReal :=
  max ((∑ d : Fin D, X (ix2 e d) * W (ix2 d k)) + b (ix1 k)) zero

/-- The three hidden layers added in order and rectified: the second layer's input at edge `e`, channel `k`. -/
def mixed (XI XJ : (⟨2, ![1000000, 128]⟩ : Shape).Idx → EReal) (EA : (⟨2, ![1000000, 32]⟩ : Shape).Idx → EReal)
    (Wi : (⟨2, ![128, 64]⟩ : Shape).Idx → EReal) (bi : (⟨1, ![64]⟩ : Shape).Idx → EReal)
    (Wj : (⟨2, ![128, 64]⟩ : Shape).Idx → EReal) (bj : (⟨1, ![64]⟩ : Shape).Idx → EReal)
    (We : (⟨2, ![32, 64]⟩ : Shape).Idx → EReal) (be : (⟨1, ![64]⟩ : Shape).Idx → EReal)
    (e : Fin 1000000) (k : Fin 64) : EReal :=
  max ((hidden XI Wi bi e k + hidden XJ Wj bj e k) + hidden EA We be e k) zero

/-- The whole network: the result array as a function of the gathered rows, the edge features and the weights. -/
def out (XI XJ : (⟨2, ![1000000, 128]⟩ : Shape).Idx → EReal) (EA : (⟨2, ![1000000, 32]⟩ : Shape).Idx → EReal)
    (Wi : (⟨2, ![128, 64]⟩ : Shape).Idx → EReal) (bi : (⟨1, ![64]⟩ : Shape).Idx → EReal)
    (Wj : (⟨2, ![128, 64]⟩ : Shape).Idx → EReal) (bj : (⟨1, ![64]⟩ : Shape).Idx → EReal)
    (We : (⟨2, ![32, 64]⟩ : Shape).Idx → EReal) (be : (⟨1, ![64]⟩ : Shape).Idx → EReal)
    (Wo : (⟨2, ![64, 64]⟩ : Shape).Idx → EReal) (bo : (⟨1, ![64]⟩ : Shape).Idx → EReal) :
    (⟨2, ![1000000, 64]⟩ : Shape).Idx → EReal := fun i =>
  max ((∑ k : Fin 64, mixed XI XJ EA Wi bi Wj bj We be (i 0) k * Wo (ix2 k (i 1))) + bo (ix1 (i 1))) zero

end Cert.EdgeMlp

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KernelPayload.lean ====
/-
  What one grid point of the kernel leaves in its output block, entry by entry, over the extended reals.

  The body loads whole blocks: 4000 rows of each gathered array and of the edge features, the four weight matrices and
  the four biases as [1, 64] rows. It stores ONE value: the rectified second layer of the rectified sum of three
  rectified first layers. A change of float format is the identity on the extended reals, a matrix product into the
  zero accumulator is the sum over the contracted coordinate, and a [1, 64] row broadcast down 4000 rows reads the
  row's entry in the same column. So the entry at row `p`, column `q` of the stored block is
    max ((∑ k, max ((h₀ p k + h₁ p k) + h₂ p k) 0 · Wo[k, q]) + bo[0, q]) 0,   hᵣ p k = max ((∑ d, Xᵣ[p, d] · Wᵣ[d, k]) + bᵣ[0, k]) 0.
-/
import proofs.«422107_j8839042695496_1_alg».proof.Proof.Gen.KernelIdeal.Frame
import proofs.«422107_j8839042695496_1_alg».proof.Proof.EdgeMlp
import proofs.«422107_j8839042695496_1_alg».proof.Proof.LibDot
import Idealize.ShloMosaic.Lib.Pipeline.Value
import Idealize.ShloMosaic.Lib.ValueIdx

noncomputable section

open Idealize.ShloMosaic Idealize.ShloMosaic.TcCoe Idealize.SL.Sem

namespace Cert.KernelIdeal.Payload

open Cert.KernelIdeal Cert.KernelIdeal.Gen Idealize.ShloMosaic.ValueIdx

theorem hz : (![0, 0] : Fin 2 → Nat) = fun _ => 0 := funext fun a => by fin_cases a <;> rfl

/-- The block the body stores is its one payload of the loaded blocks: every load and the store go through the
    whole buffer. -/
theorem out_eq {F : FTy → Type} [FloatOps F] (x0 : Vec F S4000x128 .f32) (x1 : Vec F S4000x128 .f32) (x2 : Vec F S4000x32 .f32) (x3 : Vec F S128x64 .f32) (x4 : Vec F S1x64 .f32) (x5 : Vec F S128x64 .f32) (x6 : Vec F S1x64 .f32) (x7 : Vec F S32x64 .f32) (x8 : Vec F S1x64 .f32) (x9 : Vec F S64x64 .f32) (x10 : Vec F S1x64 .f32) :
    out0_11 x0 x1 x2 x3 x4 x5 x6 x7 x8 x9 x10 = k0_pay1 (k0_pay2 x9) (k0_pay3 x0 x3 x4) (k0_pay4 x1 x5 x6) (k0_pay5 x2 x7) (k0_pay6 x8) x10 := by
  unfold out0_11
  rw [View.canon_unit_zero hz]
  simp only [View.ld_unit_zero (S := S4000x128) hz, View.ld_unit_zero (S := S4000x32) hz, View.ld_unit_zero (S := S128x64) hz, View.ld_unit_zero (S := S32x64) hz, View.ld_unit_zero (S := S64x64) hz, View.ld_unit_zero (S := S1x64) hz]

/-- A [1, 64] row broadcast down the block's 4000 rows reads, at (p, k), the row's entry in column k. -/
theorem row_bcast_apply (b : Vec Ideal S1x64 .f32) (p : Fin 4000) (k : Fin 64) :
    broadcastTo S4000x64 b broadcasts_S1x64_S4000x64 (ix2 p k) = b (ix2 0 k) :=
  broadcastTo_apply b broadcasts_S1x64_S4000x64 (ix2 p k) (ix2 0 k) (fun a => by
    match a with
    | ⟨0, _⟩ => rfl
    | ⟨1, _⟩ => rfl)

/-- One first-layer unit of a block: `max (X[p, :] · W[:, k] + b[0, k]) 0`. -/
def hiddenB {D : Nat} (X : (⟨2, ![4000, D]⟩ : Shape).Idx → EReal) (W : (⟨2, ![D, 64]⟩ : Shape).Idx → EReal)
    (b : (⟨2, ![1, 64]⟩ : Shape).Idx → EReal) (p : Fin 4000) (k : Fin 64) : EReal :=
  max ((∑ d : Fin D, X (ix2 p d) * W (ix2 d k)) + b (ix2 0 k)) Cert.EdgeMlp.zero

/-- The first gathered block's layer at (p, k). -/
theorem pay3_apply (v0 : Vec Ideal S4000x128 .f32) (v8 : Vec Ideal S128x64 .f32) (v17 : Vec Ideal S1x64 .f32) (p : Fin 4000) (k : Fin 64) :
    k0_pay3 (F := Ideal) v0 v8 v17 (ix2 p k) = hiddenB (D := 128) v0 v8 v17 p k := by
  unfold k0_pay3 hiddenB
  rw [shapeCast_self, shapeCast_self, maximumf_apply, addf_apply, Cert.LibDot.matmul_zero_apply _ rfl rfl rfl rfl rfl rfl, row_bcast_apply]
  rfl

/-- The second gathered block's layer at (p, k). -/
theorem pay4_apply (v3 : Vec Ideal S4000x128 .f32) (v10 : Vec Ideal S128x64 .f32) (v24 : Vec Ideal S1x64 .f32) (p : Fin 4000) (k : Fin 64) :
    k0_pay4 (F := Ideal) v3 v10 v24 (ix2 p k) = hiddenB (D := 128) v3 v10 v24 p k := by
  unfold k0_pay4 hiddenB
  rw [shapeCast_self, shapeCast_self, maximumf_apply, addf_apply, Cert.LibDot.matmul_zero_apply _ rfl rfl rfl rfl rfl rfl, row_bcast_apply]
  rfl

/-- The edge features' product with their weights at (p, k): the bias and the rectifier come in the last payload. -/
theorem pay5_apply (v6 : Vec Ideal S4000x32 .f32) (v12 : Vec Ideal S32x64 .f32) (p : Fin 4000) (k : Fin 64) :
    k0_pay5 (F := Ideal) v6 v12 (ix2 p k) = ∑ d : Fin 32, v6 (ix2 p d) * v12 (ix2 d k) := by
  unfold k0_pay5
  rw [Cert.LibDot.matmul_zero_apply _ rfl rfl rfl rfl rfl rfl]
  rfl

/-- The edge layer's bias row broadcast down the block, at (p, k). -/
theorem pay6_apply (v31 : Vec Ideal S1x64 .f32) (p : Fin 4000) (k : Fin 64) :
    k0_pay6 (F := Ideal) v31 (ix2 p k) = v31 (ix2 0 k) := by
  unfold k0_pay6
  rw [shapeCast_self, row_bcast_apply]

/-- The stored value at (p, q), from the five computed blocks and the last bias row. -/
theorem pay1_apply (v15 : FVec Ideal S64x64 .bf16) (v22 v29 v30 v33 : FVec Ideal S4000x64 .f32) (v43 : Vec Ideal S1x64 .f32) (p : Fin 4000) (q : Fin 64) :
    k0_pay1 (F := Ideal) v15 v22 v29 v30 v33 v43 (ix2 p q)
      = max ((∑ k : Fin 64, max ((v22 (ix2 p k) + v29 (ix2 p k)) + max (v30 (ix2 p k) + v33 (ix2 p k)) Cert.EdgeMlp.zero) Cert.EdgeMlp.zero * v15 (ix2 k q))
          + v43 (ix2 0 q)) Cert.EdgeMlp.zero := by
  unfold k0_pay1
  rw [shapeCast_self, maximumf_apply, addf_apply, Cert.LibDot.matmul_zero_apply _ rfl rfl rfl rfl rfl rfl, row_bcast_apply]
  rfl

/-- THE STORED BLOCK at (p, q), as the edge network of the loaded blocks. -/
theorem out_apply (x0 : Vec Ideal S4000x128 .f32) (x1 : Vec Ideal S4000x128 .f32) (x2 : Vec Ideal S4000x32 .f32) (x3 : Vec Ideal S128x64 .f32) (x4 : Vec Ideal S1x64 .f32) (x5 : Vec Ideal S128x64 .f32) (x6 : Vec Ideal S1x64 .f32) (x7 : Vec Ideal S32x64 .f32) (x8 : Vec Ideal S1x64 .f32) (x9 : Vec Ideal S64x64 .f32) (x10 : Vec Ideal S1x64 .f32) (p : Fin 4000) (q : Fin 64) :
    out0_11 (F := Ideal) x0 x1 x2 x3 x4 x5 x6 x7 x8 x9 x10 (ix2 p q)
      = max ((∑ k : Fin 64, max ((hiddenB (D := 128) x0 x3 x4 p k + hiddenB (D := 128) x1 x5 x6 p k) + hiddenB (D := 32) x2 x7 x8 p k) Cert.EdgeMlp.zero * x9 (ix2 k q))
          + x10 (ix2 0 q)) Cert.EdgeMlp.zero := by
  rw [out_eq, pay1_apply]
  simp only [pay3_apply, pay4_apply, pay5_apply, pay6_apply]
  rfl

end Cert.KernelIdeal.Payload

end
-- ==== Proof.KernelBlocks.lean ====
/-
  From the kernel's blocks to its result array, over the extended reals.

  The grid has 250 points. At point `t` the three edge-indexed inputs and the output are staged through their block of
  rows `4000 t … 4000 t + 3999`; the four weight matrices and the four bias rows are staged whole at every point. So what
  point `t` writes back is rows `4000 t …` of ONE function of the whole arrays, the edge network of `Cert.EdgeMlp`, the
  250 blocks tile the 1000000 rows, and the result array ends holding that function.
-/
import proofs.«422107_j8839042695496_1_alg».proof.Proof.Gen.KernelIdeal.Value
import proofs.«422107_j8839042695496_1_alg».proof.Proof.KernelPayload
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx

variable (m : (ℓ : Loc nD τ sig) → Buf (Elt Ideal) ℓ) (ρ : Dev nD → PrngReg)

/-- Windows 0, 1, 2 and the output window move one block down the edge axis per grid point. -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The weights' and biases' windows stay on their one block. -/
theorem idx_fixed : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `p` of grid point `t`'s block is edge `4000 t + p`. -/
def erow (t : Fin cfg0.N) (p : Fin 4000) : Fin 1000000 :=
  ⟨4000 * t.val + p.val, by have h1 : t.val < 250 := N_0 ▸ t.isLt; have h2 := p.isLt; omega⟩

/-! ## Each window's block read at an entry, for any contents of its array -/

theorem read0_apply (A : Vec Ideal S1000000x128 .f32) (t : Fin cfg0.N) (p : Fin 4000) (d : Fin 128) :
    (((cfg0.win 0).blk t).view.read (Elt Ideal) A : Vec Ideal S4000x128 .f32) (ix2 p d) = A (ix2 (erow t p) d) := by
  rw [View.read_apply]
  show A _ = A _
  refine congrArg A (funext fun x => Fin.ext ?_)
  match x with
  | ⟨0, _⟩ => show win0_0.index t (0 : Fin 2) * 4000 + 1 * p.val = 4000 * t.val + p.val; rw [(idx_moving t).1]; omega
  | ⟨1, _⟩ => show win0_0.index t (1 : Fin 2) * 128 + 1 * d.val = d.val; rw [(idx_moving t).2.1]; omega

theorem read1_apply (A : Vec Ideal S1000000x128 .f32) (t : Fin cfg0.N) (p : Fin 4000) (d : Fin 128) :
    (((cfg0.win 1).blk t).view.read (Elt Ideal) A : Vec Ideal S4000x128 .f32) (ix2 p d) = A (ix2 (erow t p) d) := by
  rw [View.read_apply]
  show A _ = A _
  refine congrArg A (funext fun x => Fin.ext ?_)
  match x with
  | ⟨0, _⟩ => show win0_1.index t (0 : Fin 2) * 4000 + 1 * p.val = 4000 * t.val + p.val; rw [(idx_moving t).2.2.1]; omega
  | ⟨1, _⟩ => show win0_1.index t (1 : Fin 2) * 128 + 1 * d.val = d.val; rw [(idx_moving t).2.2.2.1]; omega

theorem read2_apply (A : Vec Ideal S1000000x32 .f32) (t : Fin cfg0.N) (p : Fin 4000) (d : Fin 32) :
    (((cfg0.win 2).blk t).view.read (Elt Ideal) A : Vec Ideal S4000x32 .f32) (ix2 p d) = A (ix2 (erow t p) d) := by
  rw [View.read_apply]
  show A _ = A _
  refine congrArg A (funext fun x => Fin.ext ?_)
  match x with
  | ⟨0, _⟩ => show win0_2.index t (0 : Fin 2) * 4000 + 1 * p.val = 4000 * t.val + p.val; rw [(idx_moving t).2.2.2.2.1]; omega
  | ⟨1, _⟩ => show win0_2.index t (1 : Fin 2) * 32 + 1 * d.val = d.val; rw [(idx_moving t).2.2.2.2.2.1]; omega

theorem read3_apply (A : Vec Ideal S128x64 .f32) (t : Fin cfg0.N) (a : Fin 128) (b : Fin 64) :
    (((cfg0.win 3).blk t).view.read (Elt Ideal) A : Vec Ideal S128x64 .f32) (ix2 a b) = A (ix2 a b) := by
  rw [View.read_apply]
  show A _ = A _
  refine congrArg A (funext fun x => Fin.ext ?_)
  match x with
  | ⟨0, _⟩ => show win0_3.index t (0 : Fin 2) * 128 + 1 * a.val = a.val; rw [(idx_fixed t).1]; omega
  | ⟨1, _⟩ => show win0_3.index t (1 : Fin 2) * 64 + 1 * b.val = b.val; rw [(idx_fixed t).2.1]; omega

theorem read4_apply (A : Vec Ideal S1x64 .f32) (t : Fin cfg0.N) (a : Fin 1) (b : Fin 64) :
    (((cfg0.win 4).blk t).view.read (Elt Ideal) A : Vec Ideal S1x64 .f32) (ix2 a b) = A (ix2 a b) := by
  rw [View.read_apply]
  show A _ = A _
  refine congrArg A (funext fun x => Fin.ext ?_)
  match x with
  | ⟨0, _⟩ => show win0_4.index t (0 : Fin 2) * 1 + 1 * a.val = a.val; rw [(idx_fixed t).2.2.1]; omega
  | ⟨1, _⟩ => show win0_4.index t (1 : Fin 2) * 64 + 1 * b.val = b.val; rw [(idx_fixed t).2.2.2.1]; omega

theorem read5_apply (A : Vec Ideal S128x64 .f32) (t : Fin cfg0.N) (a : Fin 128) (b : Fin 64) :
    (((cfg0.win 5).blk t).view.read (Elt Ideal) A : Vec Ideal S128x64 .f32) (ix2 a b) = A (ix2 a b) := by
  rw [View.read_apply]
  show A _ = A _
  refine congrArg A (funext fun x => Fin.ext ?_)
  match x with
  | ⟨0, _⟩ => show win0_5.index t (0 : Fin 2) * 128 + 1 * a.val = a.val; rw [(idx_fixed t).2.2.2.2.1]; omega
  | ⟨1, _⟩ => show win0_5.index t (1 : Fin 2) * 64 + 1 * b.val = b.val; rw [(idx_fixed t).2.2.2.2.2.1]; omega

theorem read6_apply (A : Vec Ideal S1x64 .f32) (t : Fin cfg0.N) (a : Fin 1) (b : Fin 64) :
    (((cfg0.win 6).blk t).view.read (Elt Ideal) A : Vec Ideal S1x64 .f32) (ix2 a b) = A (ix2 a b) := by
  rw [View.read_apply]
  show A _ = A _
  refine congrArg A (funext fun x => Fin.ext ?_)
  match x with
  | ⟨0, _⟩ => show win0_6.index t (0 : Fin 2) * 1 + 1 * a.val = a.val; rw [(idx_fixed t).2.2.2.2.2.2.1]; omega
  | ⟨1, _⟩ => show win0_6.index t (1 : Fin 2) * 64 + 1 * b.val = b.val; rw [(idx_fixed t).2.2.2.2.2.2.2.1]; omega

theorem read7_apply (A : Vec Ideal S32x64 .f32) (t : Fin cfg0.N) (a : Fin 32) (b : Fin 64) :
    (((cfg0.win 7).blk t).view.read (Elt Ideal) A : Vec Ideal S32x64 .f32) (ix2 a b) = A (ix2 a b) := by
  rw [View.read_apply]
  show A _ = A _
  refine congrArg A (funext fun x => Fin.ext ?_)
  match x with
  | ⟨0, _⟩ => show win0_7.index t (0 : Fin 2) * 32 + 1 * a.val = a.val; rw [(idx_fixed t).2.2.2.2.2.2.2.2.1]; omega
  | ⟨1, _⟩ => show win0_7.index t (1 : Fin 2) * 64 + 1 * b.val = b.val; rw [(idx_fixed t).2.2.2.2.2.2.2.2.2.1]; omega

theorem read8_apply (A : Vec Ideal S1x64 .f32) (t : Fin cfg0.N) (a : Fin 1) (b : Fin 64) :
    (((cfg0.win 8).blk t).view.read (Elt Ideal) A : Vec Ideal S1x64 .f32) (ix2 a b) = A (ix2 a b) := by
  rw [View.read_apply]
  show A _ = A _
  refine congrArg A (funext fun x => Fin.ext ?_)
  match x with
  | ⟨0, _⟩ => show win0_8.index t (0 : Fin 2) * 1 + 1 * a.val = a.val; rw [(idx_fixed t).2.2.2.2.2.2.2.2.2.2.1]; omega
  | ⟨1, _⟩ => show win0_8.index t (1 : Fin 2) * 64 + 1 * b.val = b.val; rw [(idx_fixed t).2.2.2.2.2.2.2.2.2.2.2.1]; omega

theorem read9_apply (A : Vec Ideal S64x64 .f32) (t : Fin cfg0.N) (a : Fin 64) (b : Fin 64) :
    (((cfg0.win 9).blk t).view.read (Elt Ideal) A : Vec Ideal S64x64 .f32) (ix2 a b) = A (ix2 a b) := by
  rw [View.read_apply]
  show A _ = A _
  refine congrArg A (funext fun x => Fin.ext ?_)
  match x with
  | ⟨0, _⟩ => show win0_9.index t (0 : Fin 2) * 64 + 1 * a.val = a.val; rw [(idx_fixed t).2.2.2.2.2.2.2.2.2.2.2.2.1]; omega
  | ⟨1, _⟩ => show win0_9.index t (1 : Fin 2) * 64 + 1 * b.val = b.val; rw [(idx_fixed t).2.2.2.2.2.2.2.2.2.2.2.2.2.1]; omega

theorem read10_apply (A : Vec Ideal S1x64 .f32) (t : Fin cfg0.N) (a : Fin 1) (b : Fin 64) :
    (((cfg0.win 10).blk t).view.read (Elt Ideal) A : Vec Ideal S1x64 .f32) (ix2 a b) = A (ix2 a b) := by
  rw [View.read_apply]
  show A _ = A _
  refine congrArg A (funext fun x => Fin.ext ?_)
  match x with
  | ⟨0, _⟩ => show win0_10.index t (0 : Fin 2) * 1 + 1 * a.val = a.val; rw [(idx_fixed t).2.2.2.2.2.2.2.2.2.2.2.2.2.2.1]; omega
  | ⟨1, _⟩ => show win0_10.index t (1 : Fin 2) * 64 + 1 * b.val = b.val; rw [(idx_fixed t).2.2.2.2.2.2.2.2.2.2.2.2.2.2.2]; omega

/-- The output window's block at point `t` sits at rows `4000 t …` of the result array. -/
theorem emb11 (t : Fin cfg0.N) (p : Fin 4000) (q : Fin 64) :
    (((cfg0.win 11).blk t).view.emb (ix2 p q) : S1000000x64.Idx) = ix2 (erow t p) q := by
  refine funext fun x => Fin.ext ?_
  match x with
  | ⟨0, _⟩ => show win0_11.index t (0 : Fin 2) * 4000 + 1 * p.val = 4000 * t.val + p.val; rw [(idx_moving t).2.2.2.2.2.2.1]; omega
  | ⟨1, _⟩ => show win0_11.index t (1 : Fin 2) * 64 + 1 * q.val = q.val; rw [(idx_moving t).2.2.2.2.2.2.2]; omega

/-! ## Each window's block as a function of its array: rows `4000 t …` of the edge arrays, the whole array of a weight or a bias row -/

theorem read0_eq (A : Vec Ideal S1000000x128 .f32) (t : Fin cfg0.N) :
    (((cfg0.win 0).blk t).view.read (Elt Ideal) A : Vec Ideal S4000x128 .f32) = fun y => A (ix2 (erow t (y 0)) (y 1)) := by
  funext y
  obtain ⟨p, d, rfl⟩ : ∃ (p : Fin 4000) (d : Fin 128), y = ix2 p d := ⟨y 0, y 1, eq_ix2 y⟩
  exact read0_apply A t p d

theorem read1_eq (A : Vec Ideal S1000000x128 .f32) (t : Fin cfg0.N) :
    (((cfg0.win 1).blk t).view.read (Elt Ideal) A : Vec Ideal S4000x128 .f32) = fun y => A (ix2 (erow t (y 0)) (y 1)) := by
  funext y
  obtain ⟨p, d, rfl⟩ : ∃ (p : Fin 4000) (d : Fin 128), y = ix2 p d := ⟨y 0, y 1, eq_ix2 y⟩
  exact read1_apply A t p d

theorem read2_eq (A : Vec Ideal S1000000x32 .f32) (t : Fin cfg0.N) :
    (((cfg0.win 2).blk t).view.read (Elt Ideal) A : Vec Ideal S4000x32 .f32) = fun y => A (ix2 (erow t (y 0)) (y 1)) := by
  funext y
  obtain ⟨p, d, rfl⟩ : ∃ (p : Fin 4000) (d : Fin 32), y = ix2 p d := ⟨y 0, y 1, eq_ix2 y⟩
  exact read2_apply A t p d

theorem read3_eq (A : Vec Ideal S128x64 .f32) (t : Fin cfg0.N) :
    (((cfg0.win 3).blk t).view.read (Elt Ideal) A : Vec Ideal S128x64 .f32) = A := by
  funext y
  obtain ⟨a, b, rfl⟩ : ∃ (a : Fin 128) (b : Fin 64), y = ix2 a b := ⟨y 0, y 1, eq_ix2 y⟩
  exact read3_apply A t a b

theorem read4_eq (A : Vec Ideal S1x64 .f32) (t : Fin cfg0.N) :
    (((cfg0.win 4).blk t).view.read (Elt Ideal) A : Vec Ideal S1x64 .f32) = A := by
  funext y
  obtain ⟨a, b, rfl⟩ : ∃ (a : Fin 1) (b : Fin 64), y = ix2 a b := ⟨y 0, y 1, eq_ix2 y⟩
  exact read4_apply A t a b

theorem read5_eq (A : Vec Ideal S128x64 .f32) (t : Fin cfg0.N) :
    (((cfg0.win 5).blk t).view.read (Elt Ideal) A : Vec Ideal S128x64 .f32) = A := by
  funext y
  obtain ⟨a, b, rfl⟩ : ∃ (a : Fin 128) (b : Fin 64), y = ix2 a b := ⟨y 0, y 1, eq_ix2 y⟩
  exact read5_apply A t a b

theorem read6_eq (A : Vec Ideal S1x64 .f32) (t : Fin cfg0.N) :
    (((cfg0.win 6).blk t).view.read (Elt Ideal) A : Vec Ideal S1x64 .f32) = A := by
  funext y
  obtain ⟨a, b, rfl⟩ : ∃ (a : Fin 1) (b : Fin 64), y = ix2 a b := ⟨y 0, y 1, eq_ix2 y⟩
  exact read6_apply A t a b

theorem read7_eq (A : Vec Ideal S32x64 .f32) (t : Fin cfg0.N) :
    (((cfg0.win 7).blk t).view.read (Elt Ideal) A : Vec Ideal S32x64 .f32) = A := by
  funext y
  obtain ⟨a, b, rfl⟩ : ∃ (a : Fin 32) (b : Fin 64), y = ix2 a b := ⟨y 0, y 1, eq_ix2 y⟩
  exact read7_apply A t a b

theorem read8_eq (A : Vec Ideal S1x64 .f32) (t : Fin cfg0.N) :
    (((cfg0.win 8).blk t).view.read (Elt Ideal) A : Vec Ideal S1x64 .f32) = A := by
  funext y
  obtain ⟨a, b, rfl⟩ : ∃ (a : Fin 1) (b : Fin 64), y = ix2 a b := ⟨y 0, y 1, eq_ix2 y⟩
  exact read8_apply A t a b

theorem read9_eq (A : Vec Ideal S64x64 .f32) (t : Fin cfg0.N) :
    (((cfg0.win 9).blk t).view.read (Elt Ideal) A : Vec Ideal S64x64 .f32) = A := by
  funext y
  obtain ⟨a, b, rfl⟩ : ∃ (a : Fin 64) (b : Fin 64), y = ix2 a b := ⟨y 0, y 1, eq_ix2 y⟩
  exact read9_apply A t a b

theorem read10_eq (A : Vec Ideal S1x64 .f32) (t : Fin cfg0.N) :
    (((cfg0.win 10).blk t).view.read (Elt Ideal) A : Vec Ideal S1x64 .f32) = A := by
  funext y
  obtain ⟨a, b, rfl⟩ : ∃ (a : Fin 1) (b : Fin 64), y = ix2 a b := ⟨y 0, y 1, eq_ix2 y⟩
  exact read10_apply A t a b

/-! ## What a grid point writes back, and the result array -/

/-- A [1, 64] row read as a vector of 64 entries. -/
abbrev rowVec (b : Vec Ideal S1x64 .f32) : (⟨1, ![64]⟩ : Shape).Idx → EReal := fun j => b (ix2 0 (j 0))

/-- WHAT POINT `t` WRITES BACK, for any contents of the eleven input arrays: the body's block of the windows' blocks is
    block `t` of the edge network of the whole arrays. Row `p` of the block is edge `4000 t + p`; the weights and the
    bias rows are the same at every point. -/
theorem block_eq (A0 A1 : Vec Ideal S1000000x128 .f32) (A2 : Vec Ideal S1000000x32 .f32) (A3 : Vec Ideal S128x64 .f32)
    (A4 : Vec Ideal S1x64 .f32) (A5 : Vec Ideal S128x64 .f32) (A6 : Vec Ideal S1x64 .f32) (A7 : Vec Ideal S32x64 .f32)
    (A8 : Vec Ideal S1x64 .f32) (A9 : Vec Ideal S64x64 .f32) (A10 : Vec Ideal S1x64 .f32) (t : Fin cfg0.N) :
    (cfg0.win 11).cut (grid0.coords t)
        (out0_11 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7)
          (((cfg0.win 8).blk t).view.read (Elt Ideal) A8) (((cfg0.win 9).blk t).view.read (Elt Ideal) A9)
          (((cfg0.win 10).blk t).view.read (Elt Ideal) A10))
      = ((cfg0.win 11).blk t).view.read (Elt Ideal)
          (Cert.EdgeMlp.out A0 A1 A2 A3 (rowVec A4) A5 (rowVec A6) A7 (rowVec A8) A9 (rowVec A10)) := by
  funext j
  obtain ⟨p, q, rfl⟩ : ∃ (p : Fin 4000) (q : Fin 64), j = ix2 p q := ⟨j 0, j 1, eq_ix2 j⟩
  rw [View.read_apply, emb11]
  refine (Payload.out_apply (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) p q).trans ?_
  rw [read0_eq, read1_eq, read2_eq, read3_eq, read4_eq, read5_eq, read6_eq, read7_eq, read8_eq, read9_eq, read10_eq]
  rfl

/-- A vector of 64 entries laid out as a [1, 64] row and read back entry by entry is the vector. -/
theorem rowVec_shapeCast (b : Vec Ideal S64 .f32) : rowVec (shapeCast S1x64 b shapeCasts_S64_S1x64) = b := by
  funext j
  show shapeCast S1x64 b shapeCasts_S64_S1x64 (ix2 0 (j 0)) = b j
  refine shapeCast_apply b shapeCasts_S64_S1x64 (ix2 0 (j 0)) j ?_
  rewrite [Shape.rowMajor_val_one, Shape.rowMajor_val_two]
  show (j 0).val = 0 * 64 + (j 0).val
  omega

/-- The arrays as the region finds them, at their literal types. -/
abbrev xiArr (c : Dev nD) : Vec Ideal S1000000x128 .f32 := V m c main_v4
abbrev xjArr (c : Dev nD) : Vec Ideal S1000000x128 .f32 := V m c main_v5
abbrev eaArr (c : Dev nD) : Vec Ideal S1000000x32 .f32 := V m c main_arg2
abbrev wiArr (c : Dev nD) : Vec Ideal S128x64 .f32 := V m c main_arg3
abbrev biArr (c : Dev nD) : Vec Ideal S1x64 .f32 := V m c main_v6
abbrev wjArr (c : Dev nD) : Vec Ideal S128x64 .f32 := V m c main_arg5
abbrev bjArr (c : Dev nD) : Vec Ideal S1x64 .f32 := V m c main_v7
abbrev weArr (c : Dev nD) : Vec Ideal S32x64 .f32 := V m c main_arg7
abbrev beArr (c : Dev nD) : Vec Ideal S1x64 .f32 := V m c main_v8
abbrev woArr (c : Dev nD) : Vec Ideal S64x64 .f32 := V m c main_arg9
abbrev boArr (c : Dev nD) : Vec Ideal S1x64 .f32 := V m c main_v9

/-- THE RESULT ARRAY: the edge network of the arrays as the region finds them. -/
def G (c : Dev nD) : Vec Ideal S1000000x64 .f32 :=
  Cert.EdgeMlp.out (xiArr m c) (xjArr m c) (eaArr m c) (wiArr m c) (rowVec (biArr m c)) (wjArr m c) (rowVec (bjArr m c))
    (weArr m c) (rowVec (beArr m c)) (woArr m c) (rowVec (boArr m c))

/-- What point `t` writes back is block `t` of the result array. -/
theorem flushed_eq (c : Dev nD) (t : Fin cfg0.N) :
    (dats m 0 c).flushed 11 t = ((cfg0.win 11).blk t).view.read (Elt Ideal) (G m c) := by
  rw [flushed11]
  exact block_eq (xiArr m c) (xjArr m c) (eaArr m c) (wiArr m c) (biArr m c) (wjArr m c) (bjArr m c) (weArr m c) (beArr m c)
    (woArr m c) (boArr m c) t

/-- An index of the result array is in point `t`'s block iff each coordinate is in the block's range on its axis. -/
theorem mem_blk11 (t : Fin cfg0.N) (i : S1000000x64.Idx) :
    i ∈ ((cfg0.win 11).blk t).view.set ↔ ∀ a : Fin 2, win0_11.index t a * S4000x64.size a ≤ (i a).val ∧ (i a).val < win0_11.index t a * S4000x64.size a + S4000x64.size a := by
  show i ∈ ((View.whole main_v10).slice (win0_11.rect t)).set ↔ _
  rw [View.set_slice_whole, Rect.mem_set_unit]
  exact Iff.rfl

/-- The 250 blocks of 4000 rows tile the 1000000 rows: edge `e` is in the block of point `e / 4000`. -/
theorem cover (i : S1000000x64.Idx) :
    ∃ t : Fin cfg0.N, (cfg0.win 11).flush t = true ∧ i ∈ ((cfg0.win 11).blk t).view.set := by
  have hi0 : (i 0).val < 1000000 := (i 0).isLt
  have hi1 : (i 1).val < 64 := (i 1).isLt
  have hN : cfg0.N = 250 := N_0
  refine ⟨⟨(i 0).val / 4000, by rw [hN]; omega⟩, flush0_11 _, ?_⟩
  rw [mem_blk11]
  obtain ⟨-, -, -, -, -, -, e0, e1⟩ := idx_moving ⟨(i 0).val / 4000, by rw [hN]; omega⟩
  intro a
  match a with
  | ⟨0, _⟩ =>
    show win0_11.index _ (0 : Fin 2) * 4000 ≤ (i 0).val ∧ (i 0).val < win0_11.index _ (0 : Fin 2) * 4000 + 4000
    rw [e0]; show (i 0).val / 4000 * 4000 ≤ (i 0).val ∧ (i 0).val < (i 0).val / 4000 * 4000 + 4000; omega
  | ⟨1, _⟩ =>
    show win0_11.index _ (1 : Fin 2) * 64 ≤ (i 1).val ∧ (i 1).val < win0_11.index _ (1 : Fin 2) * 64 + 64
    rw [e1]; omega

/-- So the result array ends holding the edge network of the arrays the region found. -/
theorem final (c : Dev nD) : (dats m 0 c).arrAt 11 cfg0.N = G m c :=
  (dats m 0 c).arrAt_eq_of_cover 11 (G m c) (fun t _ => flushed_eq m c t) cover

/-- The kernel's run, read: the result array at the edge network, the arguments unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.Blocks
end
-- ==== Proof.TakeRows.lean ====
/-
  The kernel's two gathered inputs, when its region is entered, under the range of the edge end points.

  The host side gathers with a take: an index i below zero is replaced by i + 100000, the rows are gathered, and every
  row whose wrapped index is NOT in [0, 99999] is replaced by a fill word (two range tests, their conjunction reduced
  along the unit axis, broadcast along the row, a select). For an index in [-100000, 100000) the wrapped index is in
  [0, 99999] (one case split on the sign, the addition read on the integers), so both tests are 1 at every row, the
  reduction from 1 is 1, and the select returns the gathered rows: the plain gather at the wrapped indices. The four
  bias vectors the region finds as [1, 64] rows are the launched vectors reshaped.
-/
import proofs.«422107_j8839042695496_1_alg».proof.Proof.Gen.KernelIdeal.Frame
import Idealize.ShloMosaic.Lib.ReduceAll
import Idealize.ShloMosaic.Lib.StableHlo.Run
import Idealize.ShloMosaic.Lib.StableHlo.Predicate
import Idealize.ShloMosaic.Lib.ValueIdx
import Idealize.ShloMosaic.Lib.Pipeline.Value

set_option Elab.async false

noncomputable section

open Idealize.ShloMosaic Idealize.ShloMosaic.TcCoe Idealize.SL.Sem

namespace Cert.KernelIdeal.TakeRows

open Cert.KernelIdeal Cert.KernelIdeal.Gen

variable {F : FTy → Type} [FloatOps F] (m : (ℓ : Loc nD τ sig) → Buf (Elt F) ℓ)

/-- Every end point of every edge names a node, counted from either end of the node table. -/
def InRange (a1 : IVec S2x1000000 32) : Prop :=
  ∀ i : S2x1000000.Idx, (-100000 : Int) ≤ (a1 i).toInt ∧ (a1 i).toInt < 100000

/-- Row 0 of the index pair as a vector of 1000000 indices. -/
abbrev row0 (a1 : IVec S2x1000000 32) : IVec S1000000 32 :=
  shapeCast _ (extractStridedSlice S1x1000000 ![0, 0] a1 slices_S2x1000000_S1x1000000_0_0) shapeCasts_S1x1000000_S1000000
/-- Row 1 of the index pair as a vector of 1000000 indices. -/
abbrev row1 (a1 : IVec S2x1000000 32) : IVec S1000000 32 :=
  shapeCast _ (extractStridedSlice S1x1000000 ![1, 0] a1 slices_S2x1000000_S1x1000000_1_0) shapeCasts_S1x1000000_S1000000

/-- A negative index counts from the table's end. -/
abbrev wrap (r : IVec S1000000 32) : IVec S1000000 32 :=
  select (cmpi .slt r (broadcastInDim S1000000 ![] bcast_S_S1000000 (constantI S_ 32 0#32)))
    (addi r (broadcastInDim S1000000 ![] bcast_S_S1000000 (constantI S_ 32 100000#32))) r

/-- Whole rows of the node table gathered at a vector of indices. -/
abbrev takeRows (x : FVec F S100000x128 .f32) (r : IVec S1000000 32) : FVec F S1000000x128 .f32 :=
  Host.gather gather_S100000x128_S1000000x1_S1000000x128_1_0_n_n_0_1_1128 x
    (broadcastInDim S1000000x1 ![0] bcast_S1000000_S1000000x1_0 (wrap r))

/-! ## Words -/

/-- A left fold by `and` from 1 over words that are all 1 is 1. -/
theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi 1#1 1#1 = 1#1 from by decide]
    exact foldl_andi_one g hg l

/-- A reduction by `and` from the constant 1 of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

/-- An index in [-100000, 100000), moved up by 100000 when negative, lies in [0, 99999]. -/
theorem wrap_word {w : BitVec 32} (h1 : (-100000 : Int) ≤ w.toInt) (h2 : w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  have z : (0#32 : BitVec 32).toInt = 0 := by decide
  have n : (100000#32 : BitVec 32).toInt = 100000 := by decide
  by_cases hc : IntOp.cmpi .slt w 0#32 = 1#1
  · have hlt := IntOp.cmpi_slt.1 hc
    rw [z] at hlt
    rw [hc, ValueIdx.select_one]
    have e : (IntOp.addi w 100000#32).toInt = w.toInt + 100000 := by
      rw [IntOp.addi, BitVec.toInt_add, n]
      exact Int.bmod_eq_of_le (by omega) (by omega)
    rw [e]; omega
  · have hge : ¬ w.toInt < 0 := by
      intro h; exact hc (IntOp.cmpi_slt.2 (by rw [z]; exact h))
    rw [ValueIdx.eq_zero_of_ne_one hc, ValueIdx.select_zero]
    omega

/-! ## The fill never fires -/

/-- The wrapped index of an index in [-100000, 100000) lies in [0, 99999]. -/
theorem wrap_range (r : IVec S1000000 32) (hr : ∀ k, (-100000 : Int) ≤ (r k).toInt ∧ (r k).toInt < 100000)
    (k : S1000000.Idx) : 0 ≤ (wrap r k).toInt ∧ (wrap r k).toInt ≤ 99999 :=
  wrap_word (hr k).1 (hr k).2

/-- A column of indices all in [0, 99999] passes both range tests at every entry. -/
theorem valid_col_one (idx : IVec S1000000x1 32) (h : ∀ i, 0 ≤ (idx i).toInt ∧ (idx i).toInt ≤ 99999)
    (i : S1000000x1.Idx) :
    andi (cmpi .sge idx (broadcastInDim S1000000x1 ![] bcast_S_S1000000x1 (constantI S_ 32 0#32)))
      (cmpi .sle idx (broadcastInDim S1000000x1 ![0, 1] bcast_S1x1_S1000000x1_0_1
        (broadcastInDim S1x1 ![1] bcast_S1_S1x1_1 (constantI S1 32 99999#32)))) i = 1#1 := by
  have z : (0#32 : BitVec 32).toInt = 0 := by decide
  have n : (99999#32 : BitVec 32).toInt = 99999 := by decide
  refine IntOp.andi_eq_one.2 ⟨?_, ?_⟩
  · show IntOp.cmpi .sge (idx i) 0#32 = 1#1
    rw [IntOp.cmpi_sge, z]; exact (h i).1
  · show IntOp.cmpi .sle (idx i) 99999#32 = 1#1
    rw [IntOp.cmpi_sle, n]; exact (h i).2

/-- A select on a row mask that is 1 at every row, broadcast along the rows, is its first operand. -/
theorem fill_select_eq (M : IVec S1000000 1) (hM : ∀ j, M j = 1#1) (B C : FVec F S1000000x128 .f32) :
    select (broadcastInDim S1000000x128 ![0] bcast_S1000000_S1000000x128_0 M) B C = B := by
  funext i
  have e : broadcastInDim S1000000x128 ![0] bcast_S1000000_S1000000x128_0 M i = 1#1 := by
    unfold broadcastInDim
    exact hM _
  show Scalar.select (broadcastInDim S1000000x128 ![0] bcast_S1000000_S1000000x128_0 M i) (B i) (C i) = B i
  rw [e, ValueIdx.select_one]

/-- Row 0 of an index pair in range is in range. -/
theorem row0_range {a1 : IVec S2x1000000 32} (h : InRange a1) (k : S1000000.Idx) :
    (-100000 : Int) ≤ (row0 a1 k).toInt ∧ (row0 a1 k).toInt < 100000 := h _
/-- The same for row 1. -/
theorem row1_range {a1 : IVec S2x1000000 32} (h : InRange a1) (k : S1000000.Idx) :
    (-100000 : Int) ≤ (row1 a1 k).toInt ∧ (row1 a1 k).toInt < 100000 := h _

/-! ## The reshaped biases when the region is entered -/

/-- The bias `main_arg4` as one row when the region is entered. -/
theorem V_main_v6 (c : Dev nD) : V m c main_v6 = shapeCast S1x64 (m ((c : Thread nD τ).loc main_arg4)) shapeCasts_S64_S1x64 := by
  dsimp only [V]
  simp only [hostOps0, hostOps0_1, hostOps0_2, hostOps0_3, List.flatten_cons, List.flatten_nil, List.append_nil, List.cons_append, List.nil_append]
  after_results
  rfl

/-- The bias `main_arg6` as one row when the region is entered. -/
theorem V_main_v7 (c : Dev nD) : V m c main_v7 = shapeCast S1x64 (m ((c : Thread nD τ).loc main_arg6)) shapeCasts_S64_S1x64 := by
  dsimp only [V]
  simp only [hostOps0, hostOps0_1, hostOps0_2, hostOps0_3, List.flatten_cons, List.flatten_nil, List.append_nil, List.cons_append, List.nil_append]
  after_results
  rfl

/-- The bias `main_arg8` as one row when the region is entered. -/
theorem V_main_v8 (c : Dev nD) : V m c main_v8 = shapeCast S1x64 (m ((c : Thread nD τ).loc main_arg8)) shapeCasts_S64_S1x64 := by
  dsimp only [V]
  simp only [hostOps0, hostOps0_1, hostOps0_2, hostOps0_3, List.flatten_cons, List.flatten_nil, List.append_nil, List.cons_append, List.nil_append]
  after_results
  rfl

/-- The bias `main_arg10` as one row when the region is entered. -/
theorem V_main_v9 (c : Dev nD) : V m c main_v9 = shapeCast S1x64 (m ((c : Thread nD τ).loc main_arg10)) shapeCasts_S64_S1x64 := by
  dsimp only [V]
  simp only [hostOps0, hostOps0_1, hostOps0_2, hostOps0_3, List.flatten_cons, List.flatten_nil, List.append_nil, List.cons_append, List.nil_append]
  after_results
  rfl

/-! ## The first gathered input when the region is entered -/

/-- The first take's reduction through its buffers' types: the transports are identities. -/
theorem reduce_cast0 (v11 : IVec S1000000x1 1) (vc : IVec S_ 1) :
    ((StableHlo.TRef.of main_call0_v12 : StableHlo.TRef sig ⟨S1000000, .i1⟩).toBuf
      (@Host.reduce S1000000x1 (Elt F EltTy.i1) [1] S1000000 S_ (@IntOp.andi 1)
        ((StableHlo.TRef.of main_call0_v11 : StableHlo.TRef sig ⟨S1000000x1, .i1⟩).ofBuf (Val := Elt F) v11)
        ((StableHlo.TRef.of main_call0_c_3 : StableHlo.TRef sig ⟨S_, .i1⟩).ofBuf (Val := Elt F) vc)
        reducesTo_S1000000x1_S1000000_d1 h_S_) : IVec S1000000 1)
      = @Host.reduce S1000000x1 (Elt F EltTy.i1) [1] S1000000 S_ (@IntOp.andi 1) v11 vc
          reducesTo_S1000000x1_S1000000_d1 h_S_ :=
  (cast_eq _ _).trans
    (congrArg₂ (fun x v => @Host.reduce S1000000x1 (Elt F EltTy.i1) [1] S1000000 S_ (@IntOp.andi 1) x v
      reducesTo_S1000000x1_S1000000_d1 h_S_) (cast_eq _ v11) (cast_eq _ vc))

/-- The first take's initial value of the reduction is the constant 1. -/
theorem V_c3_0 (c : Dev nD) : (V m c main_call0_c_3 : IVec S_ 1) = constantI S_ 1 1#1 := by
  dsimp only [V]
  simp only [hostOps0, hostOps0_1, hostOps0_2, hostOps0_3, List.flatten_cons, List.flatten_nil, List.append_nil, List.cons_append, List.nil_append]
  open StableHlo in after_results_simp
  rfl

/-- The first take's two range tests on the wrapped indices as a column. -/
theorem V_v11_0 (c : Dev nD) :
    (V m c main_call0_v11 : IVec S1000000x1 1)
      = andi (cmpi .sge (broadcastInDim S1000000x1 ![0] bcast_S1000000_S1000000x1_0 (wrap (row0 (m ((c : Thread nD τ).loc main_arg1)))))
          (broadcastInDim S1000000x1 ![] bcast_S_S1000000x1 (constantI S_ 32 0#32)))
        (cmpi .sle (broadcastInDim S1000000x1 ![0] bcast_S1000000_S1000000x1_0 (wrap (row0 (m ((c : Thread nD τ).loc main_arg1)))))
          (broadcastInDim S1000000x1 ![0, 1] bcast_S1x1_S1000000x1_0_1
            (broadcastInDim S1x1 ![1] bcast_S1_S1x1_1 (constantI S1 32 99999#32)))) := by
  dsimp only [V]
  simp only [hostOps0, hostOps0_1, hostOps0_2, hostOps0_3, List.flatten_cons, List.flatten_nil, List.append_nil, List.cons_append, List.nil_append]
  open StableHlo in after_results_simp
  rfl

/-- The first take's row mask is the reduction by `and`, from that initial value, of those tests along each row. -/
theorem V_v12_0 (c : Dev nD) :
    (V m c main_call0_v12 : IVec S1000000 1)
      = Host.reduce IntOp.andi (V m c main_call0_v11 : IVec S1000000x1 1) (V m c main_call0_c_3 : IVec S_ 1)
          reducesTo_S1000000x1_S1000000_d1 h_S_ := by
  refine Eq.trans ?_ (reduce_cast0 (V m c main_call0_v11) (V m c main_call0_c_3))
  dsimp only [V]
  simp only [hostOps0, hostOps0_1, hostOps0_2, hostOps0_3, List.flatten_cons, List.flatten_nil, List.append_nil, List.cons_append, List.nil_append]
  (open StableHlo in after_results_simp) <;> rfl

/-- The first take's row mask is 1 at every row when the index pair is in range. -/
theorem V_mask0 (c : Dev nD) (h : InRange (m ((c : Thread nD τ).loc main_arg1))) (j : S1000000.Idx) :
    (V m c main_call0_v12 : IVec S1000000 1) j = 1#1 :=
  (congrFun (V_v12_0 m c) j).trans
    (reduce_andi_one _ _ _ _
      (fun i => (congrFun (V_v11_0 m c) i).trans
        (valid_col_one _ (fun _ => wrap_range _ (row0_range h) _) i))
      (fun k => congrFun (V_c3_0 m c) k) j)

/-- The first take's last three operations through their buffers' types: the transports are identities. -/
theorem fill_cast0 (v12 : IVec S1000000 1) (v13 v15 : FVec F S1000000x128 .f32) :
    ((StableHlo.TRef.of main_v4 : StableHlo.TRef sig ⟨S1000000x128, .f32⟩).toBuf
      (select
        ((StableHlo.TRef.of main_call0_v14 : StableHlo.TRef sig ⟨S1000000x128, .i1⟩).ofBuf
          ((StableHlo.TRef.of main_call0_v14 : StableHlo.TRef sig ⟨S1000000x128, .i1⟩).toBuf
            (broadcastInDim S1000000x128 ![0] bcast_S1000000_S1000000x128_0
              ((StableHlo.TRef.of main_call0_v12 : StableHlo.TRef sig ⟨S1000000, .i1⟩).ofBuf (Val := Elt F) v12))))
        ((StableHlo.TRef.of main_call0_v13 : StableHlo.TRef sig ⟨S1000000x128, .f32⟩).ofBuf (Val := Elt F) v13)
        ((StableHlo.TRef.of main_call0_v15 : StableHlo.TRef sig ⟨S1000000x128, .f32⟩).ofBuf (Val := Elt F) v15)) : FVec F S1000000x128 .f32)
      = select (broadcastInDim S1000000x128 ![0] bcast_S1000000_S1000000x128_0 v12) v13 v15 := rfl

set_option maxRecDepth 16384 in
/-- The first take's gathered rows, before the fill. -/
theorem V_gather0 (c : Dev nD) :
    (V m c main_call0_v13 : FVec F S1000000x128 .f32) = takeRows (m ((c : Thread nD τ).loc main_arg0)) (row0 (m ((c : Thread nD τ).loc main_arg1))) := by
  dsimp only [V]
  simp only [hostOps0, hostOps0_1, hostOps0_2, hostOps0_3, List.flatten_cons, List.flatten_nil, List.append_nil, List.cons_append, List.nil_append]
  open StableHlo in after_results_simp
  rfl

set_option maxRecDepth 16384 in
/-- The first take's result is the select of its gathered rows and the fill on its row mask broadcast along the rows. -/
theorem V_fill0 (c : Dev nD) :
    (V m c main_v4 : FVec F S1000000x128 .f32)
      = select (broadcastInDim S1000000x128 ![0] bcast_S1000000_S1000000x128_0 (V m c main_call0_v12 : IVec S1000000 1))
          (V m c main_call0_v13 : FVec F S1000000x128 .f32) (V m c main_call0_v15 : FVec F S1000000x128 .f32) := by
  refine Eq.trans ?_ (fill_cast0 (V m c main_call0_v12) (V m c main_call0_v13) (V m c main_call0_v15))
  dsimp only [V]
  simp only [hostOps0, hostOps0_1, hostOps0_2, hostOps0_3, List.flatten_cons, List.flatten_nil, List.append_nil, List.cons_append, List.nil_append]
  (open StableHlo in after_results_simp) <;> rfl

/-- The first gathered input when the region is entered: with the index pair in range, the plain gather of the node
    table's rows at row 0 of the pair, wrapped. -/
theorem V_main_v4 (c : Dev nD) (h : InRange (m ((c : Thread nD τ).loc main_arg1))) :
    V m c main_v4 = takeRows (m ((c : Thread nD τ).loc main_arg0)) (row0 (m ((c : Thread nD τ).loc main_arg1))) :=
  (V_fill0 m c).trans ((fill_select_eq _ (V_mask0 m c h) _ _).trans (V_gather0 m c))

/-! ## The second gathered input when the region is entered -/

/-- The second take's reduction through its buffers' types: the transports are identities. -/
theorem reduce_cast1 (v11 : IVec S1000000x1 1) (vc : IVec S_ 1) :
    ((StableHlo.TRef.of main_call1_v12 : StableHlo.TRef sig ⟨S1000000, .i1⟩).toBuf
      (@Host.reduce S1000000x1 (Elt F EltTy.i1) [1] S1000000 S_ (@IntOp.andi 1)
        ((StableHlo.TRef.of main_call1_v11 : StableHlo.TRef sig ⟨S1000000x1, .i1⟩).ofBuf (Val := Elt F) v11)
        ((StableHlo.TRef.of main_call1_c_3 : StableHlo.TRef sig ⟨S_, .i1⟩).ofBuf (Val := Elt F) vc)
        reducesTo_S1000000x1_S1000000_d1 h_S_) : IVec S1000000 1)
      = @Host.reduce S1000000x1 (Elt F EltTy.i1) [1] S1000000 S_ (@IntOp.andi 1) v11 vc
          reducesTo_S1000000x1_S1000000_d1 h_S_ :=
  (cast_eq _ _).trans
    (congrArg₂ (fun x v => @Host.reduce S1000000x1 (Elt F EltTy.i1) [1] S1000000 S_ (@IntOp.andi 1) x v
      reducesTo_S1000000x1_S1000000_d1 h_S_) (cast_eq _ v11) (cast_eq _ vc))

/-- The second take's initial value of the reduction is the constant 1. -/
theorem V_c3_1 (c : Dev nD) : (V m c main_call1_c_3 : IVec S_ 1) = constantI S_ 1 1#1 := by
  dsimp only [V]
  simp only [hostOps0, hostOps0_1, hostOps0_2, hostOps0_3, List.flatten_cons, List.flatten_nil, List.append_nil, List.cons_append, List.nil_append]
  open StableHlo in after_results_simp
  rfl

/-- The second take's two range tests on the wrapped indices as a column. -/
theorem V_v11_1 (c : Dev nD) :
    (V m c main_call1_v11 : IVec S1000000x1 1)
      = andi (cmpi .sge (broadcastInDim S1000000x1 ![0] bcast_S1000000_S1000000x1_0 (wrap (row1 (m ((c : Thread nD τ).loc main_arg1)))))
          (broadcastInDim S1000000x1 ![] bcast_S_S1000000x1 (constantI S_ 32 0#32)))
        (cmpi .sle (broadcastInDim S1000000x1 ![0] bcast_S1000000_S1000000x1_0 (wrap (row1 (m ((c : Thread nD τ).loc main_arg1)))))
          (broadcastInDim S1000000x1 ![0, 1] bcast_S1x1_S1000000x1_0_1
            (broadcastInDim S1x1 ![1] bcast_S1_S1x1_1 (constantI S1 32 99999#32)))) := by
  dsimp only [V]
  simp only [hostOps0, hostOps0_1, hostOps0_2, hostOps0_3, List.flatten_cons, List.flatten_nil, List.append_nil, List.cons_append, List.nil_append]
  open StableHlo in after_results_simp
  rfl

/-- The second take's row mask is the reduction by `and`, from that initial value, of those tests along each row. -/
theorem V_v12_1 (c : Dev nD) :
    (V m c main_call1_v12 : IVec S1000000 1)
      = Host.reduce IntOp.andi (V m c main_call1_v11 : IVec S1000000x1 1) (V m c main_call1_c_3 : IVec S_ 1)
          reducesTo_S1000000x1_S1000000_d1 h_S_ := by
  refine Eq.trans ?_ (reduce_cast1 (V m c main_call1_v11) (V m c main_call1_c_3))
  dsimp only [V]
  simp only [hostOps0, hostOps0_1, hostOps0_2, hostOps0_3, List.flatten_cons, List.flatten_nil, List.append_nil, List.cons_append, List.nil_append]
  (open StableHlo in after_results_simp) <;> rfl

/-- The second take's row mask is 1 at every row when the index pair is in range. -/
theorem V_mask1 (c : Dev nD) (h : InRange (m ((c : Thread nD τ).loc main_arg1))) (j : S1000000.Idx) :
    (V m c main_call1_v12 : IVec S1000000 1) j = 1#1 :=
  (congrFun (V_v12_1 m c) j).trans
    (reduce_andi_one _ _ _ _
      (fun i => (congrFun (V_v11_1 m c) i).trans
        (valid_col_one _ (fun _ => wrap_range _ (row1_range h) _) i))
      (fun k => congrFun (V_c3_1 m c) k) j)

/-- The second take's last three operations through their buffers' types: the transports are identities. -/
theorem fill_cast1 (v12 : IVec S1000000 1) (v13 v15 : FVec F S1000000x128 .f32) :
    ((StableHlo.TRef.of main_v5 : StableHlo.TRef sig ⟨S1000000x128, .f32⟩).toBuf
      (select
        ((StableHlo.TRef.of main_call1_v14 : StableHlo.TRef sig ⟨S1000000x128, .i1⟩).ofBuf
          ((StableHlo.TRef.of main_call1_v14 : StableHlo.TRef sig ⟨S1000000x128, .i1⟩).toBuf
            (broadcastInDim S1000000x128 ![0] bcast_S1000000_S1000000x128_0
              ((StableHlo.TRef.of main_call1_v12 : StableHlo.TRef sig ⟨S1000000, .i1⟩).ofBuf (Val := Elt F) v12))))
        ((StableHlo.TRef.of main_call1_v13 : StableHlo.TRef sig ⟨S1000000x128, .f32⟩).ofBuf (Val := Elt F) v13)
        ((StableHlo.TRef.of main_call1_v15 : StableHlo.TRef sig ⟨S1000000x128, .f32⟩).ofBuf (Val := Elt F) v15)) : FVec F S1000000x128 .f32)
      = select (broadcastInDim S1000000x128 ![0] bcast_S1000000_S1000000x128_0 v12) v13 v15 := rfl

set_option maxRecDepth 16384 in
/-- The second take's gathered rows, before the fill. -/
theorem V_gather1 (c : Dev nD) :
    (V m c main_call1_v13 : FVec F S1000000x128 .f32) = takeRows (m ((c : Thread nD τ).loc main_arg0)) (row1 (m ((c : Thread nD τ).loc main_arg1))) := by
  dsimp only [V]
  simp only [hostOps0, hostOps0_1, hostOps0_2, hostOps0_3, List.flatten_cons, List.flatten_nil, List.append_nil, List.cons_append, List.nil_append]
  open StableHlo in after_results_simp
  rfl

set_option maxRecDepth 16384 in
/-- The second take's result is the select of its gathered rows and the fill on its row mask broadcast along the rows. -/
theorem V_fill1 (c : Dev nD) :
    (V m c main_v5 : FVec F S1000000x128 .f32)
      = select (broadcastInDim S1000000x128 ![0] bcast_S1000000_S1000000x128_0 (V m c main_call1_v12 : IVec S1000000 1))
          (V m c main_call1_v13 : FVec F S1000000x128 .f32) (V m c main_call1_v15 : FVec F S1000000x128 .f32) := by
  refine Eq.trans ?_ (fill_cast1 (V m c main_call1_v12) (V m c main_call1_v13) (V m c main_call1_v15))
  dsimp only [V]
  simp only [hostOps0, hostOps0_1, hostOps0_2, hostOps0_3, List.flatten_cons, List.flatten_nil, List.append_nil, List.cons_append, List.nil_append]
  (open StableHlo in after_results_simp) <;> rfl

/-- The second gathered input when the region is entered: with the index pair in range, the plain gather of the node
    table's rows at row 1 of the pair, wrapped. -/
theorem V_main_v5 (c : Dev nD) (h : InRange (m ((c : Thread nD τ).loc main_arg1))) :
    V m c main_v5 = takeRows (m ((c : Thread nD τ).loc main_arg0)) (row1 (m ((c : Thread nD τ).loc main_arg1))) :=
  (V_fill1 m c).trans ((fill_select_eq _ (V_mask1 m c h) _ _).trans (V_gather1 m c))

end Cert.KernelIdeal.TakeRows

end
-- ==== Proof.KernelResult.lean ====
/-
  The kernel's result array under the precondition.

  The region finds the two gathered inputs as jnp.take left them: the rows of the node table at the edges' end points,
  except that a row whose index is out of range would read as a fill word. The precondition keeps every end point in
  range, so the fill never fires and the region finds the plain gathers; the four bias vectors it finds laid out as
  [1, 64] rows, and every other array as launched. So the result array is the edge network of the plain gathers, the
  edge features and the weights as launched.
-/
import proofs.«422107_j8839042695496_1_alg».proof.Proof.KernelBlocks
import proofs.«422107_j8839042695496_1_alg».proof.Proof.TakeRows

noncomputable section

open Idealize.ShloMosaic Idealize.ShloMosaic.TcCoe Idealize.SL.Sem

namespace Cert.KernelIdeal.Result
open Cert.KernelIdeal Cert.KernelIdeal.Gen Cert.KernelIdeal.Blocks Cert.KernelIdeal.TakeRows
variable (m : (ℓ : Loc nD τ sig) → Buf (Elt Ideal) ℓ)

/-- Under the precondition the result array is the edge network of the rows gathered at the edges' end points, the edge
    features and the weights as launched. -/
theorem G_eq (c : Dev nD) (h : InRange (m ((c : Thread nD τ).loc main_arg1))) :
    G m c = Cert.EdgeMlp.out (takeRows (F := Ideal) (m ((c : Thread nD τ).loc main_arg0)) (row0 (m ((c : Thread nD τ).loc main_arg1))))
      (takeRows (F := Ideal) (m ((c : Thread nD τ).loc main_arg0)) (row1 (m ((c : Thread nD τ).loc main_arg1))))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  unfold G
  rw [show xiArr m c = _ from V_main_v4 m c h, show xjArr m c = _ from V_main_v5 m c h,
    show eaArr m c = _ from V_main_arg2 m c, show wiArr m c = _ from V_main_arg3 m c,
    show biArr m c = _ from V_main_v6 m c, show wjArr m c = _ from V_main_arg5 m c,
    show bjArr m c = _ from V_main_v7 m c, show weArr m c = _ from V_main_arg7 m c,
    show beArr m c = _ from V_main_v8 m c, show woArr m c = _ from V_main_arg9 m c,
    show boArr m c = _ from V_main_v9 m c,
    rowVec_shapeCast, rowVec_shapeCast, rowVec_shapeCast, rowVec_shapeCast]
end Cert.KernelIdeal.Result

end
-- ==== Proof.RefValue.lean ====
import proofs.«422107_j8839042695496_1_alg».proof.Proof.Gen.ReferenceIdeal.Read
import proofs.«422107_j8839042695496_1_alg».proof.Proof.EdgeMlp

/-
  The reference program's result, read one operation at a time, is the edge network of `Cert.EdgeMlp`:
  each `dot_general` is a sum over its contracted axis, each bias is broadcast along the edge axis, each
  rectifier is a maximum with the broadcast zero word, and the three hidden layers are added in the order
  the specification adds them. The two gathered arrays stay unopened: both sides mention them as they are.
-/

noncomputable section
open Idealize.ShloMosaic Idealize.ShloMosaic.TcCoe Idealize.SL.Sem
namespace Cert.ReferenceIdeal.RefValue
open Cert.ReferenceIdeal Cert.ReferenceIdeal.Gen Cert.ReferenceIdeal.Read Idealize.ShloMosaic.ValueIdx

/-! ### The index functions of the run are the coordinate constructors -/

/-- The left operand of the first contraction is read at row `i 0`, column `d`. -/
theorem lidx18 (i : S1000000x64.Idx) (d : Fin 128) : lidx_main_v18 i d = ix2 (i 0) d :=
  funext fun a => Fin.ext (by match a with | ⟨0, _⟩ => rfl | ⟨1, _⟩ => rfl)
/-- The right operand of the first contraction is read at row `d`, column `i 1`. -/
theorem ridx18 (i : S1000000x64.Idx) (d : Fin 128) : ridx_main_v18 i d = ix2 d (i 1) :=
  funext fun a => Fin.ext (by match a with | ⟨0, _⟩ => rfl | ⟨1, _⟩ => rfl)
/-- The first bias, broadcast twice, is read at channel `i 1`. -/
theorem bidx19 (i : S1000000x64.Idx) : idx_main_v19 (idx_main_v20 i) = ix1 (i 1) :=
  funext fun a => Fin.ext (by match a with | ⟨0, _⟩ => rfl)

/-- The left operand of the second contraction is read at row `i 0`, column `d`. -/
theorem lidx23 (i : S1000000x64.Idx) (d : Fin 128) : lidx_main_v23 i d = ix2 (i 0) d :=
  funext fun a => Fin.ext (by match a with | ⟨0, _⟩ => rfl | ⟨1, _⟩ => rfl)
/-- The right operand of the second contraction is read at row `d`, column `i 1`. -/
theorem ridx23 (i : S1000000x64.Idx) (d : Fin 128) : ridx_main_v23 i d = ix2 d (i 1) :=
  funext fun a => Fin.ext (by match a with | ⟨0, _⟩ => rfl | ⟨1, _⟩ => rfl)
/-- The second bias, broadcast twice, is read at channel `i 1`. -/
theorem bidx24 (i : S1000000x64.Idx) : idx_main_v24 (idx_main_v25 i) = ix1 (i 1) :=
  funext fun a => Fin.ext (by match a with | ⟨0, _⟩ => rfl)

/-- The left operand of the third contraction is read at row `i 0`, column `d`. -/
theorem lidx28 (i : S1000000x64.Idx) (d : Fin 32) : lidx_main_v28 i d = ix2 (i 0) d :=
  funext fun a => Fin.ext (by match a with | ⟨0, _⟩ => rfl | ⟨1, _⟩ => rfl)
/-- The right operand of the third contraction is read at row `d`, column `i 1`. -/
theorem ridx28 (i : S1000000x64.Idx) (d : Fin 32) : ridx_main_v28 i d = ix2 d (i 1) :=
  funext fun a => Fin.ext (by match a with | ⟨0, _⟩ => rfl | ⟨1, _⟩ => rfl)
/-- The third bias, broadcast twice, is read at channel `i 1`. -/
theorem bidx29 (i : S1000000x64.Idx) : idx_main_v29 (idx_main_v30 i) = ix1 (i 1) :=
  funext fun a => Fin.ext (by match a with | ⟨0, _⟩ => rfl)

/-- The right operand of the last contraction is read at row `k`, column `i 1`. -/
theorem ridx36 (i : S1000000x64.Idx) (k : Fin 64) : ridx_main_v36 i k = ix2 k (i 1) :=
  funext fun a => Fin.ext (by match a with | ⟨0, _⟩ => rfl | ⟨1, _⟩ => rfl)
/-- The left operand of the last contraction is read in row `i 0`: its first coordinate. -/
theorem lidx36_0 (i : S1000000x64.Idx) (k : Fin 64) : lidx_main_v36 i k 0 = i 0 := rfl
/-- Its second coordinate is the contracted channel `k`. -/
theorem lidx36_1 (i : S1000000x64.Idx) (k : Fin 64) : lidx_main_v36 i k 1 = k := rfl
/-- The last bias, broadcast twice, is read at channel `i 1`. -/
theorem bidx37 (i : S1000000x64.Idx) : idx_main_v37 (idx_main_v38 i) = ix1 (i 1) :=
  funext fun a => Fin.ext (by match a with | ⟨0, _⟩ => rfl)

/-! ### The three hidden layers -/

/-- The source-node layer of the run is `hidden` of the first gathered array. -/
theorem hidden_src (x0 : (⟨S100000x128, .f32⟩ : BufTy).Contents (Elt Ideal)) (x1 : (⟨S2x1000000, .i32⟩ : BufTy).Contents (Elt Ideal))
    (x3 : (⟨S128x64, .f32⟩ : BufTy).Contents (Elt Ideal)) (x4 : (⟨S64, .f32⟩ : BufTy).Contents (Elt Ideal)) (i : S1000000x64.Idx) :
    val_main_v22 (F := Ideal) x0 x1 x3 x4 i
      = Cert.EdgeMlp.hidden (D := 128) (val_main_v8 (F := Ideal) x0 x1) x3 x4 (i 0) (i 1) := by
  unfold Cert.EdgeMlp.hidden
  rw [val_main_v22_apply, val_main_v21_apply, val_main_v18_apply, val_main_v20_apply, val_main_v19_apply,
    val_main_call0_v0_apply, val_main_call0_cst_apply]
  simp only [lidx18, ridx18, bidx19, Ideal.addf_def, Ideal.maximumf_def, Ideal.ofBits_def]
  rfl

/-- The target-node layer of the run is `hidden` of the second gathered array. -/
theorem hidden_dst (x0 : (⟨S100000x128, .f32⟩ : BufTy).Contents (Elt Ideal)) (x1 : (⟨S2x1000000, .i32⟩ : BufTy).Contents (Elt Ideal))
    (x5 : (⟨S128x64, .f32⟩ : BufTy).Contents (Elt Ideal)) (x6 : (⟨S64, .f32⟩ : BufTy).Contents (Elt Ideal)) (i : S1000000x64.Idx) :
    val_main_v27 (F := Ideal) x0 x1 x5 x6 i
      = Cert.EdgeMlp.hidden (D := 128) (val_main_v17 (F := Ideal) x0 x1) x5 x6 (i 0) (i 1) := by
  unfold Cert.EdgeMlp.hidden
  rw [val_main_v27_apply, val_main_v26_apply, val_main_v23_apply, val_main_v25_apply, val_main_v24_apply,
    val_main_call1_v0_apply, val_main_call1_cst_apply]
  simp only [lidx23, ridx23, bidx24, Ideal.addf_def, Ideal.maximumf_def, Ideal.ofBits_def]
  rfl

/-- The edge-feature layer of the run is `hidden` of the edge features. -/
theorem hidden_edge (x2 : (⟨S1000000x32, .f32⟩ : BufTy).Contents (Elt Ideal))
    (x7 : (⟨S32x64, .f32⟩ : BufTy).Contents (Elt Ideal)) (x8 : (⟨S64, .f32⟩ : BufTy).Contents (Elt Ideal)) (i : S1000000x64.Idx) :
    val_main_v32 (F := Ideal) x2 x7 x8 i
      = Cert.EdgeMlp.hidden (D := 32) x2 x7 x8 (i 0) (i 1) := by
  unfold Cert.EdgeMlp.hidden
  rw [val_main_v32_apply, val_main_v31_apply, val_main_v28_apply, val_main_v30_apply, val_main_v29_apply,
    val_main_call2_v0_apply, val_main_call2_cst_apply]
  simp only [lidx28, ridx28, bidx29, Ideal.addf_def, Ideal.maximumf_def, Ideal.ofBits_def]
  rfl

/-! ### The mixed layer and the result -/

/-- The rectified sum of the three layers in the run is `mixed`. -/
theorem mixed_eq (x0 : (⟨S100000x128, .f32⟩ : BufTy).Contents (Elt Ideal)) (x1 : (⟨S2x1000000, .i32⟩ : BufTy).Contents (Elt Ideal)) (x2 : (⟨S1000000x32, .f32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (i : S1000000x64.Idx) :
    val_main_v35 (F := Ideal) x0 x1 x2 x3 x4 x5 x6 x7 x8 i
      = Cert.EdgeMlp.mixed (val_main_v8 (F := Ideal) x0 x1) (val_main_v17 (F := Ideal) x0 x1) x2 x3 x4 x5 x6 x7 x8 (i 0) (i 1) := by
  unfold Cert.EdgeMlp.mixed
  rw [val_main_v35_apply, val_main_v34_apply, val_main_v33_apply, hidden_src, hidden_dst, hidden_edge,
    val_main_call3_v0_apply, val_main_call3_cst_apply]
  simp only [Ideal.addf_def, Ideal.maximumf_def, Ideal.ofBits_def]

/-- The reference program's result is the edge network of the specification, applied to the two gathered
    arrays, the edge features and the weights. -/
theorem ref_eq (x0 : (⟨S100000x128, .f32⟩ : BufTy).Contents (Elt Ideal)) (x1 : (⟨S2x1000000, .i32⟩ : BufTy).Contents (Elt Ideal)) (x2 : (⟨S1000000x32, .f32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S32x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    Read.val_main_v40 (F := Ideal) x0 x1 x2 x3 x4 x5 x6 x7 x8 x9 x10
      = Cert.EdgeMlp.out (Read.val_main_v8 (F := Ideal) x0 x1) (Read.val_main_v17 (F := Ideal) x0 x1) x2 x3 x4 x5 x6 x7 x8 x9 x10 := by
  funext i
  unfold Cert.EdgeMlp.out
  rw [val_main_v40_apply, val_main_v39_apply, val_main_v36_apply, val_main_v38_apply, val_main_v37_apply,
    val_main_call4_v0_apply, val_main_call4_cst_apply]
  simp only [mixed_eq, lidx36_0, lidx36_1, ridx36, bidx37, Ideal.addf_def, Ideal.maximumf_def, Ideal.ofBits_def]
  rfl

end Cert.ReferenceIdeal.RefValue

end
-- ==== Proof.PreRange.lean ====
/-
  What the precondition says about the edge end points.

  The precondition is a conjunction, every conjunct a `jnp.all`: finiteness of each float input, and last
  `jnp.all((edge_index >= -100000) & (edge_index < 100000))`. A conjunction of one-bit words that is 1 has every
  conjunct 1, an `all` that is 1 had a 1 at every element, and a signed comparison that is 1 orders its operands as
  integers. So every entry `w` of the index pair satisfies -100000 ≤ w < 100000: it names one of the 100000 nodes,
  counted from the start of the node table when it is not negative and from its end when it is.
-/
import proofs.«422107_j8839042695496_1_alg».proof.Proof.Gen.Pre_finite_inputs
import Idealize.ShloMosaic.Lib.ReduceAll
import Idealize.ShloMosaic.Lib.ValueIdx
import Idealize.ShloMosaic.Lib.Pipeline.Value

noncomputable section

open Idealize.ShloMosaic

namespace Cert.EdgeRange

open Cert.Pre_finite_inputs Cert.Pre_finite_inputs.Gen

instance : Subsingleton S_.Idx := ⟨fun a b => funext fun d => d.elim0⟩

/-- The edge end points the precondition admits: its last conjunct says of every entry of the index pair that it is at
    least -100000 and below 100000, i.e. that it names a node counted from either end of the node table. -/
theorem range_of_pre {F : FTy → Type} [FloatOps F] (a0 : FVec F S100000x128 .f32) (a1 : IVec S2x1000000 32) (a2 : FVec F S1000000x32 .f32)
    (a3 : FVec F S128x64 .f32) (a4 : FVec F S64 .f32) (a5 : FVec F S128x64 .f32) (a6 : FVec F S64 .f32) (a7 : FVec F S32x64 .f32)
    (a8 : FVec F S64 .f32) (a9 : FVec F S64x64 .f32) (a10 : FVec F S64 .f32)
    (h : fn (F := F) a0 a1 a2 a3 a4 a5 a6 a7 a8 a9 a10 = fun _ => 1#1) :
    ∀ i : S2x1000000.Idx, (-100000 : Int) ≤ (a1 i).toInt ∧ (a1 i).toInt < 100000 := by
  intro i
  have h0 := congrFun h ValueIdx.ix0
  dsimp only [fn, fn_part1, fn_part2, fn_part3] at h0
  have h1 : IntOp.andi _ (Host.reduce IntOp.andi
      (andi (cmpi .sge a1 (broadcastInDim S2x1000000 ![] bcast_S_S2x1000000 (constantI S_ 32 4294867296#32)))
        (cmpi .slt a1 (broadcastInDim S2x1000000 ![] bcast_S_S2x1000000 (constantI S_ 32 100000#32))))
      (constantI S_ 1 1#1) reducesTo_S2x1000000_S_d0_1 h_S_ ValueIdx.ix0) = 1#1 := h0
  have h2 := Host.reduce_andi_all _ _ _ _ _ (IntOp.andi_eq_one.1 h1).2 i
  have h3 : IntOp.andi (IntOp.cmpi .sge (a1 i) (broadcastInDim S2x1000000 ![] bcast_S_S2x1000000 (constantI S_ 32 4294867296#32) i))
      (IntOp.cmpi .slt (a1 i) (broadcastInDim S2x1000000 ![] bcast_S_S2x1000000 (constantI S_ 32 100000#32) i)) = 1#1 := h2
  have e1 : broadcastInDim S2x1000000 ![] bcast_S_S2x1000000 (constantI S_ 32 4294867296#32) i = 4294867296#32 :=
    broadcastInDim_apply _ bcast_S_S2x1000000 _ i ValueIdx.ix0 (fun a => a.elim0)
  have e2 : broadcastInDim S2x1000000 ![] bcast_S_S2x1000000 (constantI S_ 32 100000#32) i = 100000#32 :=
    broadcastInDim_apply _ bcast_S_S2x1000000 _ i ValueIdx.ix0 (fun a => a.elim0)
  rw [e1, e2] at h3
  obtain ⟨h4, h5⟩ := IntOp.andi_eq_one.1 h3
  have h6 := IntOp.cmpi_sge.1 h4
  have h7 := IntOp.cmpi_slt.1 h5
  have c1 : (4294867296#32 : BitVec 32).toInt = -100000 := by decide
  have c2 : (100000#32 : BitVec 32).toInt = 100000 := by decide
  rw [c1] at h6
  rw [c2] at h7
  exact ⟨h6, h7⟩

end Cert.EdgeRange

end
-- ==== Proof.lean ====
/-
  The certificate of the fused edge network: for every edge `e` and output channel `n`,
    out[e, n] = relu (∑ k, relu (h_i[e, k] + h_j[e, k] + h_e[e, k]) · W_o[k, n] + b_o[n]),
    h_i[e, k] = relu (∑ d, x[src e, d] · W_i[d, k] + b_i[k]),  h_j likewise at dst e,  h_e over the edge's own features,
  computed by a kernel over 250 blocks of 4000 edges (its two gathered inputs made on the host by jnp.take) and by the
  plain jnp reference. Over the extended reals a change of float format is the identity and a matrix product is the sum
  over the contracted coordinate, so both programs compute the ONE function `Cert.EdgeMlp.out` of the gathered rows,
  the edge features and the weights, with every sum and every addition in the same order: no algebraic law is needed and
  finiteness is never used. What IS used of the precondition is the range of the edge end points, -100000 ≤ i < 100000:
  the kernel's host-side take replaces a row whose index is out of range by a fill word where the reference's indexing
  clamps, and with every index in range the fill never fires, so the two programs gather the same rows.
  The three frames are the generated ones (the reference's is its generated run with the result dropped), and the
  idealization rewrote nothing, so `preserves` is trivial.
-/
import proofs.«422107_j8839042695496_1_alg».proof.Defs
import proofs.«422107_j8839042695496_1_alg».proof.Proof.Gen.Kernel
import proofs.«422107_j8839042695496_1_alg».proof.Proof.Gen.Kernel.Skeleton
import proofs.«422107_j8839042695496_1_alg».proof.Proof.Gen.Kernel.Launch
import proofs.«422107_j8839042695496_1_alg».proof.Proof.Gen.Kernel.Points
import proofs.«422107_j8839042695496_1_alg».proof.Proof.Gen.Kernel.Frame
import proofs.«422107_j8839042695496_1_alg».proof.Proof.Gen.KernelIdeal
import proofs.«422107_j8839042695496_1_alg».proof.Proof.Gen.KernelIdeal.Skeleton
import proofs.«422107_j8839042695496_1_alg».proof.Proof.Gen.KernelIdeal.Launch
import proofs.«422107_j8839042695496_1_alg».proof.Proof.Gen.KernelIdeal.Points
import proofs.«422107_j8839042695496_1_alg».proof.Proof.Gen.KernelIdeal.Frame
import proofs.«422107_j8839042695496_1_alg».proof.Proof.Gen.ReferenceIdeal
import proofs.«422107_j8839042695496_1_alg».proof.Proof.Gen.Pre_finite_inputs
import proofs.«422107_j8839042695496_1_alg».proof.Proof.Gen.KernelIdeal.Value
import proofs.«422107_j8839042695496_1_alg».proof.Proof.Gen.ReferenceIdeal.Run
import proofs.«422107_j8839042695496_1_alg».proof.Proof.Gen.ReferenceIdeal.Read
import proofs.«422107_j8839042695496_1_alg».proof.Proof.KernelResult
import proofs.«422107_j8839042695496_1_alg».proof.Proof.RefValue
import proofs.«422107_j8839042695496_1_alg».proof.Proof.PreRange
import Idealize.ShloMosaic.Adequacy
import Idealize.ShloMosaic.Init

noncomputable section

namespace Cert.Proof

open Idealize.ShloMosaic Idealize.SL.Sem

/-- The kernel at the word level runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every edge end point in range, both programs end with the edge
    network of the same gathered rows, edge features and weights: the kernel's result array block by block, the
    reference's one operation at a time. -/
theorem algebraic : Cert.algebraic_KernelIdeal_ReferenceIdeal := by
  intro m ρ m' ρ' hpre hagree
  refine ⟨Cert.KernelIdeal.Blocks.G m, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10, Cert.ReferenceIdeal.Read.val_main_v40_eq,
    Cert.ReferenceIdeal.RefValue.ref_eq]
  exact (Cert.KernelIdeal.Result.G_eq m c (Cert.EdgeRange.range_of_pre _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
